-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S4x2048x16 : Shape := ⟨3, ![4, 2048, 16]⟩
abbrev S4x16x2048 : Shape := ⟨3, ![4, 16, 2048]⟩
abbrev S_ : Shape := ⟨0, ![]⟩
abbrev S4x2048 : Shape := ⟨2, ![4, 2048]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S4x2048x16 : S_.BroadcastsInDim S4x2048x16 (![] : Fin 0 → Fin S4x2048x16.rank)
  reducesTo_S4x2048x16_S_d0_1_2 : S4x2048x16.ReducesTo [0, 1, 2] S_
  bcast_S_S4x16x2048 : S_.BroadcastsInDim S4x16x2048 (![] : Fin 0 → Fin S4x16x2048.rank)
  reducesTo_S4x16x2048_S_d0_1_2 : S4x16x2048.ReducesTo [0, 1, 2] S_
  reducesTo_S4x2048x2048_S4x2048_d2 : S4x2048x2048.ReducesTo [2] S4x2048
  bcast_S_S4x2048 : S_.BroadcastsInDim S4x2048 (![] : Fin 0 → Fin S4x2048.rank)
  reducesTo_S4x2048_S_d0_1 : S4x2048.ReducesTo [0, 1] S_
  dot_S4x2048x2048_S4x2048x16_S4x2048x16_2_1_1_2_0_0_wf : DotDims.WF S4x2048x2048 S4x2048x16 S4x2048x16 [2] [1] [1] [2] [0] [0]
  dot_S4x2048x16_S4x16x2048_S4x2048x2048_2_1_1_2_0_0_wf : DotDims.WF S4x2048x16 S4x16x2048 S4x2048x2048 [2] [1] [1] [2] [0] [0]

variable [Facts]

def dot_S4x2048x2048_S4x2048x16_S4x2048x16_2_1_1_2_0_0 : DotDims S4x2048x2048 S4x2048x16 S4x2048x16 where
  lhsContracting := [2]
  rhsContracting := [1]
  lhsNonContracting := [1]
  rhsNonContracting := [2]
  lhsBatch := [0]
  rhsBatch := [0]
  wf := dot_S4x2048x2048_S4x2048x16_S4x2048x16_2_1_1_2_0_0_wf
def dot_S4x2048x16_S4x16x2048_S4x2048x2048_2_1_1_2_0_0 : DotDims S4x2048x16 S4x16x2048 S4x2048x2048 where
  lhsContracting := [2]
  rhsContracting := [1]
  lhsNonContracting := [1]
  rhsNonContracting := [2]
  lhsBatch := [0]
  rhsBatch := [0]
  wf := dot_S4x2048x16_S4x16x2048_S4x2048x2048_2_1_1_2_0_0_wf
def fn_part1 {F : FTy → Type} [FloatOps F] (main_arg0 : FVec F S4x2048x2048 .f32) (main_arg3 : FVec F S4x2048x16 .f32) (main_arg4 : FVec F S4x16x2048 .f32) (main_v13 : IVec S_ 1) (main_v16 : IVec S4x2048x16 1) : IVec S_ 1 :=
  let main_c_5 : IVec S_ 1 := constantI S_ 1 1#1
  let main_v17 : IVec S_ 1 := (fun x v => Host.reduce IntOp.andi x v reducesTo_S4x2048x16_S_d0_1_2 h_S_) main_v16 main_c_5
  let main_v18 : IVec S_ 1 := andi main_v13 main_v17
  let main_v19 : FVec F S4x16x2048 .f32 := Host.absf main_arg4
  let main_cst_6 : FVec F S_ .f32 := constant S_ .f32 0x7F800000#32
  let main_v20 : FVec F S4x16x2048 .f32 := broadcastInDim S4x16x2048 ![] bcast_S_S4x16x2048 main_cst_6
  let main_v21 : IVec S4x16x2048 1 := cmpf .olt main_v19 main_v20
  let main_c_7 : IVec S_ 1 := constantI S_ 1 1#1
  let main_v22 : IVec S_ 1 := (fun x v => Host.reduce IntOp.andi x v reducesTo_S4x16x2048_S_d0_1_2 h_S_) main_v21 main_c_7
  let main_v23 : IVec S_ 1 := andi main_v18 main_v22
  let main_v24 : FVec F S4x2048x16 .f32 := (fun l r => Host.dotGeneral dot_S4x2048x2048_S4x2048x16_S4x2048x16_2_1_1_2_0_0 none l r) main_arg0 main_arg3
  let main_v25 : FVec F S4x2048x2048 .f32 := (fun l r => Host.dotGeneral dot_S4x2048x16_S4x16x2048_S4x2048x2048_2_1_1_2_0_0 none l r) main_v24 main_arg4
  let main_v26 : FVec F S4x2048x2048 .f32 := mulf main_v25 main_v25
  let main_cst_8 : FVec F S_ .f32 := constant S_ .f32 0x00000000#32
  let main_v27 : FVec F S4x2048 .f32 := (fun x v => Host.reduceAdd x v reducesTo_S4x2048x2048_S4x2048_d2 h_S_) main_v26 main_cst_8
  let main_cst_9 : FVec F S_ .f32 := constant S_ .f32 0x00000000#32
  let main_v28 : FVec F S4x2048 .f32 := broadcastInDim S4x2048 ![] bcast_S_S4x2048 main_cst_9
  let main_v29 : IVec S4x2048 1 := cmpf .ogt main_v27 main_v28
  let main_c_10 : IVec S_ 1 := constantI S_ 1 1#1
  let main_v30 : IVec S_ 1 := (fun x v => Host.reduce IntOp.andi x v reducesTo_S4x2048_S_d0_1 h_S_) main_v29 main_c_10
  let main_v31 : IVec S_ 1 := andi main_v23 main_v30
  main_v31

def fn {F : FTy → Type} [FloatOps F] (main_arg0 : FVec F S4x2048x2048 .f32) (main_arg1 : FVec F S2048x2048 .f32) (main_arg2 : FVec F S2048 .f32) (main_arg3 : FVec F S4x2048x16 .f32) (main_arg4 : FVec F S4x16x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S4x2048x16 .f32 := Host.absf main_arg3
  let main_cst_4 : FVec F S_ .f32 := constant S_ .f32 0x7F800000#32
  let main_v15 : FVec F S4x2048x16 .f32 := broadcastInDim S4x2048x16 ![] bcast_S_S4x2048x16 main_cst_4
  let main_v16 : IVec S4x2048x16 1 := cmpf .olt main_v14 main_v15
  fn_part1 (F := F) main_arg0 main_arg3 main_arg4 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S4x2048x16 : Shape := ⟨3, ![4, 2048, 16]⟩
abbrev S4x16x2048 : Shape := ⟨3, ![4, 16, 2048]⟩
abbrev S1x2048 : Shape := ⟨2, ![1, 2048]⟩
abbrev S1x256x2048 : Shape := ⟨3, ![1, 256, 2048]⟩
abbrev S1x2048x16 : Shape := ⟨3, ![1, 2048, 16]⟩
abbrev S1x16x2048 : Shape := ⟨3, ![1, 16, 2048]⟩
abbrev S256x2048 : Shape := ⟨2, ![256, 2048]⟩
abbrev S2048x16 : Shape := ⟨2, ![2048, 16]⟩
abbrev S16x2048 : Shape := ⟨2, ![16, 2048]⟩
abbrev S256x16 : Shape := ⟨2, ![256, 16]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S4x2048x16, .f32⟩
  | .hbm, ⟨4, _⟩ => ⟨S4x16x2048, .f32⟩
  | .hbm, ⟨5, _⟩ => ⟨S2048x2048, .bf16⟩
  | .hbm, ⟨6, _⟩ => ⟨S4x2048x16, .bf16⟩
  | .hbm, ⟨7, _⟩ => ⟨S4x16x2048, .bf16⟩
  | .hbm, ⟨8, _⟩ => ⟨S1x2048, .f32⟩
  | .hbm, ⟨9, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S2048x2048, .bf16⟩
  | .local _ .vmem, ⟨3, _⟩ => ⟨S1x2048x16, .bf16⟩
  | .local _ .vmem, ⟨4, _⟩ => ⟨S1x2048x16, .bf16⟩
  | .local _ .vmem, ⟨5, _⟩ => ⟨S1x16x2048, .bf16⟩
  | .local _ .vmem, ⟨6, _⟩ => ⟨S1x16x2048, .bf16⟩
  | .local _ .vmem, ⟨7, _⟩ => ⟨S1x2048, .f32⟩
  | .local _ .vmem, ⟨8, _⟩ => ⟨S1x256x2048, .f32⟩
  | .local _ .vmem, ⟨9, _⟩ => ⟨S1x256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S2048_S1x2048 : S2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  dot_S256x2048_S2048x2048_S256x2048_1_1_0_0_n_n_wf : DotDims.WF S256x2048 S2048x2048 S256x2048 [1] [1] [0] [0] [] []
  dot_S256x2048_S2048x16_S256x16_1_0_0_1_n_n_wf : DotDims.WF S256x2048 S2048x16 S256x16 [1] [0] [0] [1] [] []
  dot_S256x16_S16x2048_S256x2048_1_0_0_1_n_n_wf : DotDims.WF S256x16 S16x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x2048x2048.size a
  hwx0_0 : ∀ i : grid0.Coords, EltTy.bits .f32 = 32 ∨ (Rect.block (s := S4x2048x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x16.size a ≤ S4x2048x16.size a
  hwx0_2 : ∀ i : grid0.Coords, EltTy.bits .bf16 = 32 ∨ (Rect.block (s := S4x2048x16) S1x2048x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x2048.size a ≤ S4x16x2048.size a
  hwx0_3 : ∀ i : grid0.Coords, EltTy.bits .bf16 = 32 ∨ (Rect.block (s := S4x16x2048) S1x16x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S4x2048x2048.size a
  hwx0_5 : ∀ i : grid0.Coords, EltTy.bits .f32 = 32 ∨ (Rect.block (s := S4x2048x2048) S1x256x2048.size (cc0_transform_5 i) (hinb0_5 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S2048x16_S256x16_1_0_0_1_n_n : DotDims S256x2048 S2048x16 S256x16 where
  lhsContracting := [1]
  rhsContracting := [0]
  lhsNonContracting := [0]
  rhsNonContracting := [1]
  lhsBatch := []
  rhsBatch := []
  wf := dot_S256x2048_S2048x16_S256x16_1_0_0_1_n_n_wf
def dot_S256x16_S16x2048_S256x2048_1_0_0_1_n_n : DotDims S256x16 S16x2048 S256x2048 where
  lhsContracting := [1]
  rhsContracting := [0]
  lhsNonContracting := [0]
  rhsNonContracting := [1]
  lhsBatch := []
  rhsBatch := []
  wf := dot_S256x16_S16x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x16x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S4x2048x16 : Shape := ⟨3, ![4, 2048, 16]⟩
abbrev S4x16x2048 : Shape := ⟨3, ![4, 16, 2048]⟩
abbrev S1x1x2048 : Shape := ⟨3, ![1, 1, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S4x2048x16, .f32⟩
  | .hbm, ⟨4, _⟩ => ⟨S4x16x2048, .f32⟩
  | .hbm, ⟨5, _⟩ => ⟨S4x2048x2048, .f32⟩
  | .hbm, ⟨6, _⟩ => ⟨S1x1x2048, .f32⟩
  | .hbm, ⟨7, _⟩ => ⟨S4x2048x2048, .f32⟩
  | .hbm, ⟨8, _⟩ => ⟨S4x2048x2048, .f32⟩
  | .hbm, ⟨9, _⟩ => ⟨S4x2048x16, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  dot_S4x2048x2048_S2048x2048_S4x2048x2048_2_1_01_0_n_n_wf : DotDims.WF S4x2048x2048 S2048x2048 S4x2048x2048 [2] [1] [0, 1] [0] [] []
  dot_S4x2048x2048_S4x2048x16_S4x2048x16_2_1_1_2_0_0_wf : DotDims.WF S4x2048x2048 S4x2048x16 S4x2048x16 [2] [1] [1] [2] [0] [0]
  dot_S4x2048x16_S4x16x2048_S4x2048x2048_2_1_1_2_0_0_wf : DotDims.WF S4x2048x16 S4x16x2048 S4x2048x2048 [2] [1] [1] [2] [0] [0]

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x2048_S4x2048x16_S4x2048x16_2_1_1_2_0_0 : DotDims S4x2048x2048 S4x2048x16 S4x2048x16 where
  lhsContracting := [2]
  rhsContracting := [1]
  lhsNonContracting := [1]
  rhsNonContracting := [2]
  lhsBatch := [0]
  rhsBatch := [0]
  wf := dot_S4x2048x2048_S4x2048x16_S4x2048x16_2_1_1_2_0_0_wf
def dot_S4x2048x16_S4x16x2048_S4x2048x2048_2_1_1_2_0_0 : DotDims S4x2048x16 S4x16x2048 S4x2048x2048 where
  lhsContracting := [2]
  rhsContracting := [1]
  lhsNonContracting := [1]
  rhsNonContracting := [2]
  lhsBatch := [0]
  rhsBatch := [0]
  wf := dot_S4x2048x16_S4x16x2048_S4x2048x2048_2_1_1_2_0_0_wf

class Facts : Prop extends Facts₀ where

variable [Facts]
-- ==== Proof.TokenSpec.lean ====
/-
  What one token's output row is, as a function of that token's input row and of the arrays every token of its batch
  shares. With x the token's input row (2048 entries), w the weight matrix (row r, column k), bias, lr the batch's
  right LoRA factor (2048 × 16) and ll its left factor (16 × 2048):

    lowRank j = Σ_k x k · lr k j                (rank 16)
    lora r    = Σ_j lowRank j · ll j r
    normSq    = Σ_r lora r · lora r
    base r    = Σ_k x k · w r k + bias r

  The kernel scales the LoRA row by the reciprocal square root of normSq; the reference divides it by the square root
  of normSq. On the extended reals these agree whenever normSq is positive (the infinite case included: both are 0
  there); at normSq = 0 they differ (0 · ⊤ = 0 against the quotient 0 / 0), which is why positivity is assumed.
-/
import Idealize.ShloMosaic.PureOps.Ideal
import Idealize.ShloMosaic.PureOps.Ideal.Laws

noncomputable section

namespace Cert.TokenSpec

open Idealize.ShloMosaic

/-- The scale both programs multiply the normalised row by: the float 1.0, kept as its word. -/
abbrev scaleWord : EReal := Ideal.ofBits .f32 0x3F800000#32

variable (x : Fin 2048 → EReal) (w : Fin 2048 → Fin 2048 → EReal) (bias : Fin 2048 → EReal)
  (lr : Fin 2048 → Fin 16 → EReal) (ll : Fin 16 → Fin 2048 → EReal)

/-- The token's row through the right LoRA factor. -/
def lowRank (j : Fin 16) : EReal := ∑ k : Fin 2048, x k * lr k j

/-- ... and then through the left factor: the token's LoRA row. -/
def lora (r : Fin 2048) : EReal := ∑ j : Fin 16, lowRank x lr j * ll j r

/-- The square of the LoRA row's Euclidean norm. -/
def normSq : EReal := ∑ r : Fin 2048, lora x lr ll r * lora x lr ll r

/-- The base linear layer. -/
def base (r : Fin 2048) : EReal := (∑ k : Fin 2048, x k * w r k) + bias r

/-- The output row with the LoRA row scaled by the reciprocal square root of its squared norm. -/
def viaRsqrt (r : Fin 2048) : EReal :=
  base x w bias r + lora x lr ll r * Ideal.rsqrt (normSq x lr ll) * scaleWord

/-- The output row with the LoRA row divided by its norm. -/
def viaQuotient (r : Fin 2048) : EReal :=
  base x w bias r + Ideal.div (lora x lr ll r) (Ideal.sqrt (normSq x lr ll)) * scaleWord

/-- For a positive extended real s, multiplying by 1/√s is dividing by √s: for real s both are y · (√s)⁻¹, and for
    s = ⊤ both are y · 0. -/
theorem mul_rsqrt_eq_div_sqrt (y s : EReal) (hs : 0 < s) : y * Ideal.rsqrt s = Ideal.div y (Ideal.sqrt s) := by
  induction s using EReal.rec with
  | bot => exact absurd hs (not_lt.2 bot_le)
  | top =>
    rw [Ideal.rsqrt_top, Ideal.sqrt_top, Ideal.div, if_neg EReal.top_ne_zero, EReal.inv_top]
  | coe r =>
    have hr : 0 < r := by exact_mod_cast hs
    have hq : Real.sqrt r ≠ 0 := (Real.sqrt_pos.2 hr).ne'
    rw [Ideal.rsqrt_coe, Ideal.sqrt_coe, if_neg (not_lt.2 hr.le), if_neg hr.ne', if_neg (not_lt.2 hr.le),
      Ideal.div, if_neg (by exact_mod_cast hq), EReal.coe_inv]

/-- So where the squared norm is positive the two output rows are the same. -/
theorem viaRsqrt_eq_viaQuotient (h : 0 < normSq x lr ll) (r : Fin 2048) :
    viaRsqrt x w bias lr ll r = viaQuotient x w bias lr ll r := by
  unfold viaRsqrt viaQuotient
  rw [mul_rsqrt_eq_div_sqrt _ _ h]

end Cert.TokenSpec

end
-- ==== Proof.TilePayload.lean ====
/-
  What the kernel body stores for one tile, read at one index. A tile is 256 consecutive tokens of one batch; the body
  sees the tile's input rows x0 (1 × 256 × 2048), the whole weight matrix x1 (row r, column k), the batch's right LoRA
  factor x2 (1 × 2048 × 16) and left factor x3 (1 × 16 × 2048), and the bias as one row x4 (1 × 2048). Entry (0, p, q) of
  what it stores is the reciprocal-square-root form of the token row (TokenSpec.viaRsqrt) at q, for the token whose input
  row is row p of x0. Changes of float format are the identity on extended reals, a matrix product into a zero accumulator
  is the plain sum of products, and the lane sum of squares is the plain sum.
-/
import proofs.«175796_j80874234183963_1_alg».proof.Proof.Gen.KernelIdeal.Skeleton
import proofs.«175796_j80874234183963_1_alg».proof.Proof.TokenSpec
import Idealize.ShloMosaic.Lib.ValueIdx
import Idealize.ShloMosaic.Lib.Pipeline.Value
import Idealize.ShloMosaic.PureOps.Ideal.Laws

noncomputable section

namespace Cert.TilePayload

open Cert.KernelIdeal Cert.KernelIdeal.Gen Idealize.ShloMosaic Idealize.ShloMosaic.ValueIdx Cert.TokenSpec

/-! ## The base product: rows of the tile against ROWS of the weight matrix

Output (p, r); the left operand is read at (p, k), the right at (r, k): both contract their second axis. -/

theorem lhs_base_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide),
    dif_pos (show (0 : Fin S256x2048.rank) ∈ dot_S256x2048_S2048x2048_S256x2048_1_1_0_0_n_n.lhsNonContracting by decide)]
  rfl
theorem lhs_base_1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
theorem rhs_base_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide),
    dif_pos (show (0 : Fin S2048x2048.rank) ∈ dot_S256x2048_S2048x2048_S256x2048_1_1_0_0_n_n.rhsNonContracting by decide)]
  rfl
theorem rhs_base_1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- Entry (p, r) of the base product sums a(p, k) · b(r, k) over the 2048 input columns k. -/
theorem mm_base (a : FVec Ideal S256x2048 .bf16) (b : FVec Ideal S2048x2048 .bf16) (p : Fin 256) (r : Fin 2048) :
    matmul dot_S256x2048_S2048x2048_S256x2048_1_1_0_0_n_n none a b (constant (F := Ideal) S256x2048 .f32 0x00000000#32) (ix2 p r)
      = ∑ k : Fin 2048, a (ix2 p k) * b (ix2 r k) := by
  refine (Ideal.matmul_constant_zero_apply dot_S256x2048_S2048x2048_S256x2048_1_1_0_0_n_n none a b (ix2 p r)).trans ?_
  rw [← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 p r)
      ((contrEquiv1 dot_S256x2048_S2048x2048_S256x2048_1_1_0_0_n_n 2048 rfl rfl).symm k) = ix2 p k :=
    funext fun a => Fin.ext (by
      match a with
      | ⟨0, _⟩ => exact lhs_base_0 _ _
      | ⟨1, _⟩ => exact (lhs_base_1 _ _).trans hk)
  have er : dot_S256x2048_S2048x2048_S256x2048_1_1_0_0_n_n.rhsIdx (ix2 p r)
      ((contrEquiv1 dot_S256x2048_S2048x2048_S256x2048_1_1_0_0_n_n 2048 rfl rfl).symm k) = ix2 r k :=
    funext fun a => Fin.ext (by
      match a with
      | ⟨0, _⟩ => exact rhs_base_0 _ _
      | ⟨1, _⟩ => exact (rhs_base_1 _ _).trans hk)
  rw [el, er]

/-! ## The low-rank product: rows of the tile against COLUMNS of the right factor

Output (p, j); the left operand is read at (p, k), the right at (k, j). -/

theorem lhs_low_0 (i : S256x16.Idx) (q : dot_S256x2048_S2048x16_S256x16_1_0_0_1_n_n.contr.Idx) :
    (dot_S256x2048_S2048x16_S256x16_1_0_0_1_n_n.lhsIdx i q 0).val = (i 0).val := by
  unfold DotDims.lhsIdx
  rw [dif_neg (show ¬(0 : Fin S256x2048.rank) ∈ dot_S256x2048_S2048x16_S256x16_1_0_0_1_n_n.lhsBatch by decide),
    dif_pos (show (0 : Fin S256x2048.rank) ∈ dot_S256x2048_S2048x16_S256x16_1_0_0_1_n_n.lhsNonContracting by decide)]
  rfl
theorem lhs_low_1 (i : S256x16.Idx) (q : dot_S256x2048_S2048x16_S256x16_1_0_0_1_n_n.contr.Idx) :
    (dot_S256x2048_S2048x16_S256x16_1_0_0_1_n_n.lhsIdx i q 1).val = (q ⟨0, by decide⟩).val :=
  dot_S256x2048_S2048x16_S256x16_1_0_0_1_n_n.lhsIdx_val_of_single rfl i q
theorem rhs_low_0 (i : S256x16.Idx) (q : dot_S256x2048_S2048x16_S256x16_1_0_0_1_n_n.contr.Idx) :
    (dot_S256x2048_S2048x16_S256x16_1_0_0_1_n_n.rhsIdx i q 0).val = (q ⟨0, by decide⟩).val :=
  dot_S256x2048_S2048x16_S256x16_1_0_0_1_n_n.rhsIdx_val_of_single rfl i q
theorem rhs_low_1 (i : S256x16.Idx) (q : dot_S256x2048_S2048x16_S256x16_1_0_0_1_n_n.contr.Idx) :
    (dot_S256x2048_S2048x16_S256x16_1_0_0_1_n_n.rhsIdx i q 1).val = (i 1).val := by
  unfold DotDims.rhsIdx
  rw [dif_neg (show ¬(1 : Fin S2048x16.rank) ∈ dot_S256x2048_S2048x16_S256x16_1_0_0_1_n_n.rhsBatch by decide),
    dif_pos (show (1 : Fin S2048x16.rank) ∈ dot_S256x2048_S2048x16_S256x16_1_0_0_1_n_n.rhsNonContracting by decide)]
  rfl

/-- Entry (p, j) of the low-rank product sums a(p, k) · b(k, j) over the 2048 input columns k. -/
theorem mm_low (a : FVec Ideal S256x2048 .bf16) (b : FVec Ideal S2048x16 .bf16) (p : Fin 256) (j : Fin 16) :
    matmul dot_S256x2048_S2048x16_S256x16_1_0_0_1_n_n none a b (constant (F := Ideal) S256x16 .f32 0x00000000#32) (ix2 p j)
      = ∑ k : Fin 2048, a (ix2 p k) * b (ix2 k j) := by
  refine (Ideal.matmul_constant_zero_apply dot_S256x2048_S2048x16_S256x16_1_0_0_1_n_n none a b (ix2 p j)).trans ?_
  rw [← Equiv.sum_comp (contrEquiv1 dot_S256x2048_S2048x16_S256x16_1_0_0_1_n_n 2048 rfl rfl).symm]
  refine Finset.sum_congr rfl fun k _ => ?_
  have hk := contrEquiv1_symm_val dot_S256x2048_S2048x16_S256x16_1_0_0_1_n_n 2048 rfl rfl k
  have el : dot_S256x2048_S2048x16_S256x16_1_0_0_1_n_n.lhsIdx (ix2 p j)
      ((contrEquiv1 dot_S256x2048_S2048x16_S256x16_1_0_0_1_n_n 2048 rfl rfl).symm k) = ix2 p k :=
    funext fun a => Fin.ext (by
      match a with
      | ⟨0, _⟩ => exact lhs_low_0 _ _
      | ⟨1, _⟩ => exact (lhs_low_1 _ _).trans hk)
  have er : dot_S256x2048_S2048x16_S256x16_1_0_0_1_n_n.rhsIdx (ix2 p j)
      ((contrEquiv1 dot_S256x2048_S2048x16_S256x16_1_0_0_1_n_n 2048 rfl rfl).symm k) = ix2 k j :=
    funext fun a => Fin.ext (by
      match a with
      | ⟨0, _⟩ => exact (rhs_low_0 _ _).trans hk
      | ⟨1, _⟩ => exact rhs_low_1 _ _)
  rw [el, er]

/-! ## The LoRA product: the rank-16 rows against COLUMNS of the left factor

Output (p, r); the left operand is read at (p, j), the right at (j, r); the sum has 16 terms. -/

theorem lhs_lora_0 (i : S256x2048.Idx) (q : dot_S256x16_S16x2048_S256x2048_1_0_0_1_n_n.contr.Idx) :
    (dot_S256x16_S16x2048_S256x2048_1_0_0_1_n_n.lhsIdx i q 0).val = (i 0).val := by
  unfold DotDims.lhsIdx
  rw [dif_neg (show ¬(0 : Fin S256x16.rank) ∈ dot_S256x16_S16x2048_S256x2048_1_0_0_1_n_n.lhsBatch by decide),
    dif_pos (show (0 : Fin S256x16.rank) ∈ dot_S256x16_S16x2048_S256x2048_1_0_0_1_n_n.lhsNonContracting by decide)]
  rfl
theorem lhs_lora_1 (i : S256x2048.Idx) (q : dot_S256x16_S16x2048_S256x2048_1_0_0_1_n_n.contr.Idx) :
    (dot_S256x16_S16x2048_S256x2048_1_0_0_1_n_n.lhsIdx i q 1).val = (q ⟨0, by decide⟩).val :=
  dot_S256x16_S16x2048_S256x2048_1_0_0_1_n_n.lhsIdx_val_of_single rfl i q
theorem rhs_lora_0 (i : S256x2048.Idx) (q : dot_S256x16_S16x2048_S256x2048_1_0_0_1_n_n.contr.Idx) :
    (dot_S256x16_S16x2048_S256x2048_1_0_0_1_n_n.rhsIdx i q 0).val = (q ⟨0, by decide⟩).val :=
  dot_S256x16_S16x2048_S256x2048_1_0_0_1_n_n.rhsIdx_val_of_single rfl i q
theorem rhs_lora_1 (i : S256x2048.Idx) (q : dot_S256x16_S16x2048_S256x2048_1_0_0_1_n_n.contr.Idx) :
    (dot_S256x16_S16x2048_S256x2048_1_0_0_1_n_n.rhsIdx i q 1).val = (i 1).val := by
  unfold DotDims.rhsIdx
  rw [dif_neg (show ¬(1 : Fin S16x2048.rank) ∈ dot_S256x16_S16x2048_S256x2048_1_0_0_1_n_n.rhsBatch by decide),
    dif_pos (show (1 : Fin S16x2048.rank) ∈ dot_S256x16_S16x2048_S256x2048_1_0_0_1_n_n.rhsNonContracting by decide)]
  rfl

/-- Entry (p, r) of the LoRA product sums a(p, j) · b(j, r) over the rank's 16 coordinates j. -/
theorem mm_lora (a : FVec Ideal S256x16 .bf16) (b : FVec Ideal S16x2048 .bf16) (p : Fin 256) (r : Fin 2048) :
    matmul dot_S256x16_S16x2048_S256x2048_1_0_0_1_n_n none a b (constant (F := Ideal) S256x2048 .f32 0x00000000#32) (ix2 p r)
      = ∑ j : Fin 16, a (ix2 p j) * b (ix2 j r) := by
  refine (Ideal.matmul_constant_zero_apply dot_S256x16_S16x2048_S256x2048_1_0_0_1_n_n none a b (ix2 p r)).trans ?_
  rw [← Equiv.sum_comp (contrEquiv1 dot_S256x16_S16x2048_S256x2048_1_0_0_1_n_n 16 rfl rfl).symm]
  refine Finset.sum_congr rfl fun j _ => ?_
  have hj := contrEquiv1_symm_val dot_S256x16_S16x2048_S256x2048_1_0_0_1_n_n 16 rfl rfl j
  have el : dot_S256x16_S16x2048_S256x2048_1_0_0_1_n_n.lhsIdx (ix2 p r)
      ((contrEquiv1 dot_S256x16_S16x2048_S256x2048_1_0_0_1_n_n 16 rfl rfl).symm j) = ix2 p j :=
    funext fun a => Fin.ext (by
      match a with
      | ⟨0, _⟩ => exact lhs_lora_0 _ _
      | ⟨1, _⟩ => exact (lhs_lora_1 _ _).trans hj)
  have er : dot_S256x16_S16x2048_S256x2048_1_0_0_1_n_n.rhsIdx (ix2 p r)
      ((contrEquiv1 dot_S256x16_S16x2048_S256x2048_1_0_0_1_n_n 16 rfl rfl).symm j) = ix2 j r :=
    funext fun a => Fin.ext (by
      match a with
      | ⟨0, _⟩ => exact (rhs_lora_0 _ _).trans hj
      | ⟨1, _⟩ => exact rhs_lora_1 _ _)
  rw [el, er]

/-! ## The body's value as named pieces -/

variable (x0 : Vec Ideal S1x256x2048 .f32) (x1 : Vec Ideal S2048x2048 .bf16) (x2 : Vec Ideal S1x2048x16 .bf16)
  (x3 : Vec Ideal S1x16x2048 .bf16) (x4 : Vec Ideal S1x2048 .f32)

/-- The tile's input rows as a 256 × 2048 matrix. -/
def rows : FVec Ideal S256x2048 .bf16 :=
  truncf .bf16 (shapeCast S256x2048 x0 shapeCasts_S1x256x2048_S256x2048 : FVec Ideal S256x2048 .f32) bitsLt_bf16_f32

/-- The weight matrix as the body reads it. -/
def weights : FVec Ideal S2048x2048 .bf16 := shapeCast S2048x2048 x1 shapeCasts_S2048x2048_S2048x2048

/-- The batch's right LoRA factor as a 2048 × 16 matrix. -/
def rightFactor : FVec Ideal S2048x16 .bf16 := shapeCast S2048x16 x2 shapeCasts_S1x2048x16_S2048x16

/-- The batch's left LoRA factor as a 16 × 2048 matrix. -/
def leftFactor : FVec Ideal S16x2048 .bf16 := shapeCast S16x2048 x3 shapeCasts_S1x16x2048_S16x2048

/-- The base product. -/
def baseTile : FVec Ideal S256x2048 .f32 :=
  matmul dot_S256x2048_S2048x2048_S256x2048_1_1_0_0_n_n none (rows x0) (weights x1) (constant S256x2048 .f32 0x00000000#32)

/-- The bias laid along every row. -/
def biasTile : FVec Ideal S256x2048 .f32 :=
  broadcastTo S256x2048 (shapeCast S1x2048 x4 shapeCasts_S1x2048_S1x2048 : FVec Ideal S1x2048 .f32) broadcasts_S1x2048_S256x2048

/-- The rows through the right LoRA factor. -/
def lowTile : FVec Ideal S256x16 .bf16 :=
  truncf .bf16 (matmul dot_S256x2048_S2048x16_S256x16_1_0_0_1_n_n none (rows x0) (rightFactor x2)
    (constant S256x16 .f32 0x00000000#32) : FVec Ideal S256x16 .f32) bitsLt_bf16_f32

/-- ... and through the left one: the tile's LoRA rows. -/
def loraTile : FVec Ideal S256x2048 .f32 :=
  matmul dot_S256x16_S16x2048_S256x2048_1_0_0_1_n_n none (lowTile x0 x2) (leftFactor x3) (constant S256x2048 .f32 0x00000000#32)

/-- Each LoRA row's sum of squares. -/
def sumSqTile : FVec Ideal S256 .f32 :=
  multiReduction .add [1] S256 (mulf (loraTile x0 x2 x3) (loraTile x0 x2 x3)) 0x00000000#32 reduces_S256x2048_S256 (.inl rfl) rfl

/-- Its reciprocal square root, laid along the row. -/
def scaleTile : FVec Ideal S256x2048 .f32 :=
  broadcastTo S256x2048 (rsqrt (shapeCast S256x1 (sumSqTile x0 x2 x3) shapeCasts_S256_S256x1 : FVec Ideal S256x1 .f32))
    broadcasts_S256x1_S256x2048

/-- The body's stored value is these pieces put together. -/
theorem pay_eq : k0_pay1 (F := Ideal) x0 x1 x2 x3 x4
    = shapeCast S1x256x2048 (addf (addf (baseTile x0 x1) (biasTile x4))
        (mulf (mulf (loraTile x0 x2 x3) (scaleTile x0 x2 x3)) (broadcast S256x2048 (Scalar.ofBits .f32 0x3F800000#32))))
        shapeCasts_S256x2048_S1x256x2048 := rfl

/-! ## Each piece at an index -/

/-- Token p's input row. -/
abbrev xRow (p : Fin 256) : Fin 2048 → EReal := fun k => x0 (ix3 0 p k)
/-- The weight matrix by (output row, input column). -/
abbrev wMat : Fin 2048 → Fin 2048 → EReal := fun r k => x1 (ix2 r k)
abbrev biasRow : Fin 2048 → EReal := fun r => x4 (ix2 0 r)
abbrev lrMat : Fin 2048 → Fin 16 → EReal := fun k j => x2 (ix3 0 k j)
abbrev llMat : Fin 16 → Fin 2048 → EReal := fun j r => x3 (ix3 0 j r)

theorem rows_apply (p : Fin 256) (k : Fin 2048) : rows x0 (ix2 p k) = x0 (ix3 0 p k) := by
  unfold rows
  rw [truncf_apply]
  refine shapeCast_apply _ _ _ (ix3 0 p k) ?_
  rw [Shape.rowMajor_val_three, Shape.rowMajor_val_two]
  show ((0 : Fin 1).val * 256 + p.val) * 2048 + k.val = p.val * 2048 + k.val
  simp

theorem weights_eq : weights x1 = x1 := shapeCast_self _ _

theorem rightFactor_apply (k : Fin 2048) (j : Fin 16) : rightFactor x2 (ix2 k j) = x2 (ix3 0 k j) := by
  refine shapeCast_apply _ _ _ (ix3 0 k j) ?_
  rw [Shape.rowMajor_val_three, Shape.rowMajor_val_two]
  show ((0 : Fin 1).val * 2048 + k.val) * 16 + j.val = k.val * 16 + j.val
  simp

theorem leftFactor_apply (j : Fin 16) (r : Fin 2048) : leftFactor x3 (ix2 j r) = x3 (ix3 0 j r) := by
  refine shapeCast_apply _ _ _ (ix3 0 j r) ?_
  rw [Shape.rowMajor_val_three, Shape.rowMajor_val_two]
  show ((0 : Fin 1).val * 16 + j.val) * 2048 + r.val = j.val * 2048 + r.val
  simp

theorem baseTile_apply (p : Fin 256) (r : Fin 2048) :
    baseTile x0 x1 (ix2 p r) = ∑ k : Fin 2048, xRow x0 p k * wMat x1 r k := by
  unfold baseTile
  rw [mm_base, weights_eq]
  exact Finset.sum_congr rfl fun k _ => by rw [rows_apply]

theorem biasTile_apply (p : Fin 256) (r : Fin 2048) : biasTile x4 (ix2 p r) = biasRow x4 r := by
  unfold biasTile
  rw [shapeCast_self]
  exact broadcastTo_apply _ _ _ (ix2 0 r) (fun a => by
    match a with
    | ⟨0, _⟩ => show 0 = if (1 : Nat) = 1 then 0 else _; rw [if_pos rfl]
    | ⟨1, _⟩ => show r.val = if (2048 : Nat) = 1 then 0 else r.val; rw [if_neg (by decide)])

theorem lowTile_apply (p : Fin 256) (j : Fin 16) :
    lowTile x0 x2 (ix2 p j) = lowRank (xRow x0 p) (lrMat x2) j := by
  unfold lowTile lowRank
  rw [truncf_apply, mm_low]
  exact Finset.sum_congr rfl fun k _ => by rw [rows_apply, rightFactor_apply]

theorem loraTile_apply (p : Fin 256) (r : Fin 2048) :
    loraTile x0 x2 x3 (ix2 p r) = lora (xRow x0 p) (lrMat x2) (llMat x3) r := by
  unfold loraTile lora
  rw [mm_lora]
  exact Finset.sum_congr rfl fun j _ => by rw [lowTile_apply, leftFactor_apply]

theorem sumSqTile_apply (p : Fin 256) :
    sumSqTile x0 x2 x3 (ix1 p) = normSq (xRow x0 p) (lrMat x2) (llMat x3) := by
  unfold sumSqTile normSq
  refine (Ideal.multiReduction_add_single (a := 1) _ _ reduces_S256x2048_S256 _ _ (ix1 p)).trans ?_
  show ∑ k : Fin 2048, _ = _
  refine Finset.sum_congr rfl fun k _ => ?_
  have e : reduces_S256x2048_S256.lift (ix1 p) k = ix2 p k :=
    funext fun a => Fin.ext (by match a with | ⟨0, _⟩ => rfl | ⟨1, _⟩ => rfl)
  rw [e, mulf_apply, loraTile_apply]

theorem scaleTile_apply (p : Fin 256) (r : Fin 2048) :
    scaleTile x0 x2 x3 (ix2 p r) = Ideal.rsqrt (normSq (xRow x0 p) (lrMat x2) (llMat x3)) := by
  unfold scaleTile
  refine (broadcastTo_apply _ _ _ (ix2 p 0) (fun a => by
    match a with
    | ⟨0, _⟩ => show p.val = if (256 : Nat) = 1 then 0 else p.val; rw [if_neg (by decide)]
    | ⟨1, _⟩ => show 0 = if (1 : Nat) = 1 then 0 else _; rw [if_pos rfl])).trans ?_
  show Ideal.rsqrt (shapeCast S256x1 (sumSqTile x0 x2 x3) shapeCasts_S256_S256x1 (ix2 p 0)) = _
  refine congrArg Ideal.rsqrt ?_
  refine (shapeCast_apply _ _ _ (ix1 p) ?_).trans (sumSqTile_apply x0 x2 x3 p)
  rw [Shape.rowMajor_val_one, Shape.rowMajor_val_two]
  show p.val = p.val * 1 + (0 : Fin 1).val
  simp

/-- THE TILE AT AN INDEX: entry (0, p, q) of what the body stores is token p's output row, in the reciprocal-square-root
    form, at q. -/
theorem pay_apply (p : Fin 256) (q : Fin 2048) :
    k0_pay1 (F := Ideal) x0 x1 x2 x3 x4 (ix3 0 p q)
      = viaRsqrt (xRow x0 p) (wMat x1) (biasRow x4) (lrMat x2) (llMat x3) q := by
  rw [pay_eq]
  refine (shapeCast_apply _ _ _ (ix2 p q) ?_).trans ?_
  · rw [Shape.rowMajor_val_three, Shape.rowMajor_val_two]
    show p.val * 2048 + q.val = ((0 : Fin 1).val * 256 + p.val) * 2048 + q.val
    simp
  rw [addf_apply, addf_apply, mulf_apply, mulf_apply, baseTile_apply, biasTile_apply, loraTile_apply, scaleTile_apply,
    broadcast_apply]
  rfl

end Cert.TilePayload

end
-- ==== Proof.KernelArray.lean ====
/-
  From tiles to the whole output array. The grid has 4 × 8 points; point t = (b, σ) handles tokens 256·σ … 256·σ + 255 of
  batch b. Its input blocks are: those 256 rows of the input; the whole weight matrix; batch b's two LoRA factors; the
  bias row. Its output block is rows 256·σ … of batch b of the result, and the 32 output blocks tile the result. So the
  result array, entry (b, s, r), is token (b, s)'s output row at r (in the reciprocal-square-root form), where the token's
  input row is input[b, s, :] and the factors are batch b's.

  Before the region the host converts the weight matrix and the two factors to bfloat16 (the identity on extended reals)
  and reshapes the bias to one row.
-/
import proofs.«175796_j80874234183963_1_alg».proof.Proof.Gen.KernelIdeal.Value
import proofs.«175796_j80874234183963_1_alg».proof.Proof.TilePayload
import Idealize.ShloMosaic.Lib.StableHlo.Run

set_option maxRecDepth 16384

noncomputable section

namespace Cert.KernelArray

open Cert.KernelIdeal Cert.KernelIdeal.Gen Idealize.ShloMosaic Idealize.ShloMosaic.TcCoe Idealize.SL.Sem
open Idealize.ShloMosaic.ValueIdx Cert.TokenSpec
open Idealize.ShloMosaic.Pipeline (Dat)

variable (m : (ℓ : Loc nD τ sig) → Buf (Elt Ideal) ℓ) (ρ : Dev nD → PrngReg)

/-! ## The arrays the region finds -/

/-- The weight matrix after the host's conversion is the weight matrix. -/
theorem V_weight (c : Dev nD) :
    (V m c main_v0 : S2048x2048.Idx → EReal) = m ((c : Thread nD τ).loc main_arg1) := by
  dsimp only [Gen.V, Gen.hostOps0]; after_results; rfl

/-- The right factor after the host's conversion is the right factor. -/
theorem V_right (c : Dev nD) :
    (V m c main_v1 : S4x2048x16.Idx → EReal) = m ((c : Thread nD τ).loc main_arg3) := by
  dsimp only [Gen.V, Gen.hostOps0]; after_results; rfl

/-- The left factor after the host's conversion is the left factor. -/
theorem V_left (c : Dev nD) :
    (V m c main_v2 : S4x16x2048.Idx → EReal) = m ((c : Thread nD τ).loc main_arg4) := by
  dsimp only [Gen.V, Gen.hostOps0]; after_results; rfl

/-- The bias as the region finds it: the bias vector reshaped to one row. -/
theorem V_bias (c : Dev nD) :
    (V m c main_v3 : S1x2048.Idx → EReal)
      = shapeCast S1x2048 (m ((c : Thread nD τ).loc main_arg2) : S2048.Idx → EReal) shapeCasts_S2048_S1x2048 := by
  dsimp only [Gen.V, Gen.hostOps0]; after_results; rfl

/-- Entry (0, r) of that row is entry r of the bias. -/
theorem V_bias_apply (c : Dev nD) (r : Fin 2048) :
    (V m c main_v3 : S1x2048.Idx → EReal) (ix2 0 r) = (m ((c : Thread nD τ).loc main_arg2) : S2048.Idx → EReal) (ix1 r) := by
  rw [V_bias]
  refine shapeCast_apply _ _ _ (ix1 r) ?_
  rw [Shape.rowMajor_val_one, Shape.rowMajor_val_two]
  show r.val = (0 : Fin 1).val * 2048 + r.val
  simp

/-! ## The result array as one function -/

/-- Entry i = (b, s, r) of the result: token (b, s)'s output row at r. -/
def result (c : Dev nD) : S4x2048x2048.Idx → EReal := fun i =>
  viaRsqrt (fun k => (m ((c : Thread nD τ).loc main_arg0) : S4x2048x2048.Idx → EReal) (ix3 (i 0) (i 1) k))
    (fun r k => (m ((c : Thread nD τ).loc main_arg1) : S2048x2048.Idx → EReal) (ix2 r k))
    (fun r => (m ((c : Thread nD τ).loc main_arg2) : S2048.Idx → EReal) (ix1 r))
    (fun k j => (m ((c : Thread nD τ).loc main_arg3) : S4x2048x16.Idx → EReal) (ix3 (i 0) k j))
    (fun j r => (m ((c : Thread nD τ).loc main_arg4) : S4x16x2048.Idx → EReal) (ix3 (i 0) j r))
    (i 2)

/-! ## Where each window's block sits at a point -/

/-- The printed index maps, decided over the 32 grid points: the input rows' block and the output's block are at
    (b, σ, 0); the factors' blocks at (b, 0, 0); the weight matrix and the bias are one block each. -/
theorem block_indices : ∀ t : Fin cfg0.N,
    (win0_0.index t (0 : Fin 3) = win0_5.index t (0 : Fin 3) ∧ win0_0.index t (1 : Fin 3) = win0_5.index t (1 : Fin 3)
      ∧ win0_0.index t (2 : Fin 3) = 0)
    ∧ (win0_1.index t (0 : Fin 2) = 0 ∧ win0_1.index t (1 : Fin 2) = 0)
    ∧ (win0_2.index t (0 : Fin 3) = win0_5.index t (0 : Fin 3) ∧ win0_2.index t (1 : Fin 3) = 0 ∧ win0_2.index t (2 : Fin 3) = 0)
    ∧ (win0_3.index t (0 : Fin 3) = win0_5.index t (0 : Fin 3) ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) < 4 ∧ win0_5.index t (1 : Fin 3) < 8 ∧ win0_5.index t (2 : Fin 3) = 0) :=
  (by decide +kernel : ∀ t : Fin grid0.N, _)

/-- Every (batch, tile) pair is some point's output block. -/
theorem block_onto : ∀ (b : Fin 4) (σ : Fin 8), ∃ t : Fin cfg0.N, win0_5.index t = ![b.val, σ.val, 0] :=
  (by decide +kernel : ∀ (b : Fin 4) (σ : Fin 8), ∃ t : Fin grid0.N, win0_5.index t = ![b.val, σ.val, 0])

/-- The batch a point works on. -/
def batchOf (t : Fin cfg0.N) : Fin 4 := ⟨win0_5.index t (0 : Fin 3), (block_indices t).2.2.2.2.2.1⟩

/-- Token p of the point's tile, as a token of the batch. -/
def tokenOf (t : Fin cfg0.N) (p : Fin 256) : Fin 2048 :=
  ⟨win0_5.index t (1 : Fin 3) * 256 + p.val, by have := (block_indices t).2.2.2.2.2.2.1; have := p.isLt; omega⟩

/-! ## Each input block read at an index -/

theorem hz3 : (![0, 0, 0] : Fin 3 → Nat) = fun _ => 0 := funext fun a => by fin_cases a <;> rfl
theorem hz2 : (![0, 0] : Fin 2 → Nat) = fun _ => 0 := funext fun a => by fin_cases a <;> rfl

theorem rows_block (c : Dev nD) (t : Fin cfg0.N) (p : Fin 256) (k : Fin 2048) :
    iblk m c 0 t (ix3 0 p k)
      = (m ((c : Thread nD τ).loc main_arg0) : S4x2048x2048.Idx → EReal) (ix3 (batchOf t) (tokenOf t p) k) := by
  rw [← V_main_arg0 m c]
  show V m c main_arg0 (((cfg0.win 0).blk t).view.emb (ix3 0 p k)) = V m c main_arg0 _
  refine congrArg _ (funext fun a => Fin.ext ?_)
  obtain ⟨⟨e0, e1, e2⟩, -⟩ := block_indices t
  match a with
  | ⟨0, _⟩ => show win0_0.index t (0 : Fin 3) * 1 + 1 * 0 = win0_5.index t (0 : Fin 3); omega
  | ⟨1, _⟩ => show win0_0.index t (1 : Fin 3) * 256 + 1 * p.val = win0_5.index t (1 : Fin 3) * 256 + p.val; omega
  | ⟨2, _⟩ => show win0_0.index t (2 : Fin 3) * 2048 + 1 * k.val = k.val; omega

theorem weight_block (c : Dev nD) (t : Fin cfg0.N) (r k : Fin 2048) :
    iblk m c 1 t (ix2 r k) = (m ((c : Thread nD τ).loc main_arg1) : S2048x2048.Idx → EReal) (ix2 r k) := by
  rw [← V_weight m c]
  show V m c main_v0 (((cfg0.win 1).blk t).view.emb (ix2 r k)) = V m c main_v0 _
  refine congrArg _ (funext fun a => Fin.ext ?_)
  obtain ⟨-, ⟨e0, e1⟩, -⟩ := block_indices t
  match a with
  | ⟨0, _⟩ => show win0_1.index t (0 : Fin 2) * 2048 + 1 * r.val = r.val; omega
  | ⟨1, _⟩ => show win0_1.index t (1 : Fin 2) * 2048 + 1 * k.val = k.val; omega

theorem right_block (c : Dev nD) (t : Fin cfg0.N) (k : Fin 2048) (j : Fin 16) :
    iblk m c 2 t (ix3 0 k j) = (m ((c : Thread nD τ).loc main_arg3) : S4x2048x16.Idx → EReal) (ix3 (batchOf t) k j) := by
  rw [← V_right m c]
  show V m c main_v1 (((cfg0.win 2).blk t).view.emb (ix3 0 k j)) = V m c main_v1 _
  refine congrArg _ (funext fun a => Fin.ext ?_)
  obtain ⟨-, -, ⟨e0, e1, e2⟩, -⟩ := block_indices t
  match a with
  | ⟨0, _⟩ => show win0_2.index t (0 : Fin 3) * 1 + 1 * 0 = win0_5.index t (0 : Fin 3); omega
  | ⟨1, _⟩ => show win0_2.index t (1 : Fin 3) * 2048 + 1 * k.val = k.val; omega
  | ⟨2, _⟩ => show win0_2.index t (2 : Fin 3) * 16 + 1 * j.val = j.val; omega

theorem left_block (c : Dev nD) (t : Fin cfg0.N) (j : Fin 16) (r : Fin 2048) :
    iblk m c 3 t (ix3 0 j r) = (m ((c : Thread nD τ).loc main_arg4) : S4x16x2048.Idx → EReal) (ix3 (batchOf t) j r) := by
  rw [← V_left m c]
  show V m c main_v2 (((cfg0.win 3).blk t).view.emb (ix3 0 j r)) = V m c main_v2 _
  refine congrArg _ (funext fun a => Fin.ext ?_)
  obtain ⟨-, -, -, ⟨e0, e1, e2⟩, -⟩ := block_indices t
  match a with
  | ⟨0, _⟩ => show win0_3.index t (0 : Fin 3) * 1 + 1 * 0 = win0_5.index t (0 : Fin 3); omega
  | ⟨1, _⟩ => show win0_3.index t (1 : Fin 3) * 16 + 1 * j.val = j.val; omega
  | ⟨2, _⟩ => show win0_3.index t (2 : Fin 3) * 2048 + 1 * r.val = r.val; omega

theorem bias_block (c : Dev nD) (t : Fin cfg0.N) (r : Fin 2048) :
    iblk m c 4 t (ix2 0 r) = (m ((c : Thread nD τ).loc main_arg2) : S2048.Idx → EReal) (ix1 r) := by
  rw [← V_bias_apply m c r]
  show V m c main_v3 (((cfg0.win 4).blk t).view.emb (ix2 0 r)) = V m c main_v3 _
  refine congrArg _ (funext fun a => Fin.ext ?_)
  obtain ⟨-, -, -, -, ⟨e0, e1⟩, -⟩ := block_indices t
  match a with
  | ⟨0, _⟩ => show win0_4.index t (0 : Fin 2) * 1 + 1 * 0 = 0; omega
  | ⟨1, _⟩ => show win0_4.index t (1 : Fin 2) * 2048 + 1 * r.val = r.val; omega

/-! ## What a point writes back, and the whole array -/

/-- Point t writes back its block of the result function. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz3]
  simp only [View.ld_unit_zero (S := S1x256x2048) hz3, View.ld_unit_zero (S := S2048x2048) hz2,
    View.ld_unit_zero (S := S1x2048x16) hz3, View.ld_unit_zero (S := S1x16x2048) hz3, View.ld_unit_zero (S := S1x2048) hz2]
  refine funext fun (y : S1x256x2048.Idx) => ?_
  obtain ⟨p, q, rfl⟩ : ∃ (p : Fin 256) (q : Fin 2048), y = ix3 0 p q := by
    have h0 : (y 0).val = 0 := by have h : (y 0).val < 1 := (y 0).isLt; omega
    exact ⟨y 1, y 2, funext fun a => Fin.ext (by
      match a with
      | ⟨0, _⟩ => exact h0
      | ⟨1, _⟩ => rfl
      | ⟨2, _⟩ => rfl)⟩
  show k0_pay1 (F := Ideal) (iblk m c 0 t) (iblk m c 1 t) (iblk m c 2 t) (iblk m c 3 t) (iblk m c 4 t) (ix3 0 p q)
    = result m c (((cfg0.win 5).blk t).view.emb (ix3 0 p q))
  refine (Cert.TilePayload.pay_apply (iblk m c 0 t) (iblk m c 1 t) (iblk m c 2 t) (iblk m c 3 t) (iblk m c 4 t) p q).trans ?_
  have hi : ((cfg0.win 5).blk t).view.emb (ix3 0 p q) = ix3 (batchOf t) (tokenOf t p) q := by
    obtain ⟨-, -, -, -, -, ⟨-, -, e2⟩⟩ := block_indices t
    refine funext fun a => Fin.ext ?_
    match a with
    | ⟨0, _⟩ => show win0_5.index t (0 : Fin 3) * 1 + 1 * 0 = win0_5.index t (0 : Fin 3); omega
    | ⟨1, _⟩ => show win0_5.index t (1 : Fin 3) * 256 + 1 * p.val = win0_5.index t (1 : Fin 3) * 256 + p.val; omega
    | ⟨2, _⟩ => show win0_5.index t (2 : Fin 3) * 2048 + 1 * q.val = q.val; omega
  rw [hi]
  have hx : Cert.TilePayload.xRow (iblk m c 0 t) p
      = fun k => (m ((c : Thread nD τ).loc main_arg0) : S4x2048x2048.Idx → EReal) (ix3 (batchOf t) (tokenOf t p) k) :=
    funext fun k => rows_block m c t p k
  have hw : Cert.TilePayload.wMat (iblk m c 1 t)
      = fun r k => (m ((c : Thread nD τ).loc main_arg1) : S2048x2048.Idx → EReal) (ix2 r k) :=
    funext fun r => funext fun k => weight_block m c t r k
  have hb : Cert.TilePayload.biasRow (iblk m c 4 t)
      = fun r => (m ((c : Thread nD τ).loc main_arg2) : S2048.Idx → EReal) (ix1 r) :=
    funext fun r => bias_block m c t r
  have hr : Cert.TilePayload.lrMat (iblk m c 2 t)
      = fun k j => (m ((c : Thread nD τ).loc main_arg3) : S4x2048x16.Idx → EReal) (ix3 (batchOf t) k j) :=
    funext fun k => funext fun j => right_block m c t k j
  have hl : Cert.TilePayload.llMat (iblk m c 3 t)
      = fun j r => (m ((c : Thread nD τ).loc main_arg4) : S4x16x2048.Idx → EReal) (ix3 (batchOf t) j r) :=
    funext fun j => funext fun r => left_block m c t j r
  rw [hx, hw, hb, hr, hl]
  rfl

/-- An index of the result is in point t's block iff each coordinate is in the block's range on its axis. -/
theorem mem_block (t : Fin cfg0.N) (i : S4x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v4).slice (win0_5.rect t)).set ↔ _
  rw [View.set_slice_whole, Rect.mem_set_unit]
  exact Iff.rfl

/-- The 32 output blocks cover the result: entry (b, s, r) is in the block of the point at (b, s / 256). -/
theorem covered (i : S4x2048x2048.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 2048 := (i 2).isLt
  obtain ⟨t, ht⟩ := block_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- THE RESULT ARRAY after the run is the result function. -/
theorem final (c : Dev nD) : (dats m 0 c).arrAt 5 cfg0.N = result m c :=
  (dats m 0 c).arrAt_eq_of_cover 5 (result m c) (fun t _ => flushed_eq m c t) covered

/-- The kernel's run, read: the result array at the result function, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelArray

end
-- ==== Proof.RefRow.lean ====
/-
  The reference's result read at one index. Entry (b, s, r) of its output is the quotient form of the token row
  (TokenSpec.viaQuotient) at r, for token s of batch b: its input row is input[b, s, :], and the arrays it shares with the
  other tokens are the weight matrix, the bias, and batch b's two LoRA factors.
-/
import proofs.«175796_j80874234183963_1_alg».proof.Proof.Gen.ReferenceIdeal.Read
import proofs.«175796_j80874234183963_1_alg».proof.Proof.TokenSpec

noncomputable section

namespace Cert.RefRow

open Cert.ReferenceIdeal Cert.ReferenceIdeal.Read Idealize.ShloMosaic Idealize.ShloMosaic.ValueIdx Cert.TokenSpec

variable (X : (⟨S4x2048x2048, .f32⟩ : BufTy).Contents (Elt Ideal)) (W : (⟨S2048x2048, .f32⟩ : BufTy).Contents (Elt Ideal))
  (Bv : (⟨S2048, .f32⟩ : BufTy).Contents (Elt Ideal)) (LR : (⟨S4x2048x16, .f32⟩ : BufTy).Contents (Elt Ideal))
  (LL : (⟨S4x16x2048, .f32⟩ : BufTy).Contents (Elt Ideal))

/-- Token s of batch b: its input row. -/
abbrev xRow (b : Fin 4) (s : Fin 2048) : Fin 2048 → EReal := fun k => X (ix3 b s k)
/-- The weight matrix by (output row, input column). -/
abbrev wMat : Fin 2048 → Fin 2048 → EReal := fun r k => W (ix2 r k)
abbrev biasRow : Fin 2048 → EReal := fun r => Bv (ix1 r)
/-- Batch b's right LoRA factor. -/
abbrev lrMat (b : Fin 4) : Fin 2048 → Fin 16 → EReal := fun k j => LR (ix3 b k j)
/-- Batch b's left LoRA factor. -/
abbrev llMat (b : Fin 4) : Fin 16 → Fin 2048 → EReal := fun j r => LL (ix3 b j r)

/-- The reference's LoRA product at (b, s, r). -/
theorem lora_apply (b : Fin 4) (s r : Fin 2048) :
    val_main_v5 (F := Ideal) X LR LL (ix3 b s r) = lora (xRow X b s) (lrMat LR b) (llMat LL b) r := by
  rw [val_main_v5_apply]
  unfold lora lowRank
  refine Finset.sum_congr rfl fun j _ => ?_
  rw [val_main_v4_apply]
  have e3 : ridx_main_v5 (ix3 b s r) j = ix3 b j r :=
    funext fun a => by match a with | ⟨0, _⟩ => rfl | ⟨1, _⟩ => rfl | ⟨2, _⟩ => rfl
  rw [e3]
  refine congrArg (· * _) (Finset.sum_congr rfl fun k _ => ?_)
  have e1 : lidx_main_v4 (lidx_main_v5 (ix3 b s r) j) k = ix3 b s k :=
    funext fun a => by match a with | ⟨0, _⟩ => rfl | ⟨1, _⟩ => rfl | ⟨2, _⟩ => rfl
  have e2 : ridx_main_v4 (lidx_main_v5 (ix3 b s r) j) k = ix3 b k j :=
    funext fun a => by match a with | ⟨0, _⟩ => rfl | ⟨1, _⟩ => rfl | ⟨2, _⟩ => rfl
  rw [e1, e2]

/-- The sum of squares the reference's norm takes the root of, at (b, s): the token's squared norm. -/
theorem sumSq_apply (b : Fin 4) (s : Fin 2048) :
    val_main_call0_v1 (F := Ideal) X LR LL (ix2 b s) = normSq (xRow X b s) (lrMat LR b) (llMat LL b) := by
  rw [val_main_call0_v1_apply, val_main_call0_cst_apply]
  show Ideal.ofBits .f32 0x00000000#32 + _ = _
  rw [Ideal.ofBits_zero_f32, zero_add]
  unfold normSq
  refine Finset.sum_congr rfl fun k _ => ?_
  have e : idx_main_call0_v1 (ix2 b s) k = ix3 b s k :=
    funext fun a => by match a with | ⟨0, _⟩ => rfl | ⟨1, _⟩ => rfl | ⟨2, _⟩ => rfl
  rw [e, val_main_call0_v0_apply, lora_apply]
  rfl

/-- The reference's output at (b, s, r). -/
theorem out_apply (b : Fin 4) (s r : Fin 2048) :
    val_main_v11 (F := Ideal) X W Bv LR LL (ix3 b s r)
      = viaQuotient (xRow X b s) (wMat W) (biasRow Bv) (lrMat LR b) (llMat LL b) r := by
  rw [val_main_v11_apply, val_main_v3_apply, val_main_v0_apply, val_main_v2_apply, val_main_v1_apply, val_main_v10_apply,
    val_main_v8_apply, val_main_v9_apply, val_main_cst_apply, val_main_v7_apply, val_main_v6_apply, val_main_call0_v2_apply,
    lora_apply]
  have e7 : idx_main_call0_v2 (idx_main_v7 (ix3 b s r)) = ix2 b s :=
    funext fun a => by match a with | ⟨0, _⟩ => rfl | ⟨1, _⟩ => rfl
  rw [e7, sumSq_apply]
  have eb : idx_main_v1 (idx_main_v2 (ix3 b s r)) = ix1 r :=
    funext fun a => by match a with | ⟨0, _⟩ => rfl
  rw [eb]
  unfold viaQuotient base
  have e0 : ∀ k : Fin 2048, lidx_main_v0 (ix3 b s r) k = ix3 b s k := fun k =>
    funext fun a => by match a with | ⟨0, _⟩ => rfl | ⟨1, _⟩ => rfl | ⟨2, _⟩ => rfl
  have e0' : ∀ k : Fin 2048, ridx_main_v0 (ix3 b s r) k = ix2 r k := fun k =>
    funext fun a => by match a with | ⟨0, _⟩ => rfl | ⟨1, _⟩ => rfl
  simp only [e0, e0']
  rfl

end Cert.RefRow

end
-- ==== Proof.PreRows.lean ====
/-
  What the precondition's last conjunct says, decoded. The precondition computes the LoRA product y = (input · right) · left
  with the reference's own two contractions, sums y² along each token's row, and asks that every such sum be greater
  than zero. Here that is read off the printed predicate: for every batch b and token s, the token's squared norm
  (TokenSpec.normSq of its row and the batch's two factors) is positive. The sum of squares in the predicate and the one
  under the reference's square root are the same operations on the same arrays, so they are the same term.
-/
import proofs.«175796_j80874234183963_1_alg».proof.Pre_finite_inputs
import proofs.«175796_j80874234183963_1_alg».proof.Proof.Gen.Pre_finite_inputs
import proofs.«175796_j80874234183963_1_alg».proof.Proof.RefRow
import Idealize.ShloMosaic.Lib.ReduceAll
import Idealize.ShloMosaic.Lib.StableHlo.Predicate

noncomputable section

namespace Cert.PreRows

open Idealize.ShloMosaic Idealize.ShloMosaic.ValueIdx Cert.ReferenceIdeal Cert.TokenSpec

/-- The shape of a scalar has one index. -/
instance : Subsingleton Cert.Pre_finite_inputs.S_.Idx := ⟨fun a b => funext fun d => d.elim0⟩

variable (X : FVec Ideal S4x2048x2048 .f32) (W : FVec Ideal S2048x2048 .f32) (Bv : FVec Ideal S2048 .f32)
  (LR : FVec Ideal S4x2048x16 .f32) (LL : FVec Ideal S4x16x2048 .f32)

/-- Under the precondition the sum of squares the reference takes the root of is positive at every (b, s): the last
    conjunct is an all-reduction of the comparison "sum of squares > 0", so the comparison holds at each index. -/
theorem sumSq_pos (h : Cert.Pre_finite_inputs.fn (F := Ideal) X W Bv LR LL = fun _ => 1#1) (b : Fin 4) (s : Fin 2048) :
    0 < Cert.ReferenceIdeal.Read.val_main_call0_v1 (F := Ideal) X LR LL (ix2 b s) := by
  have h0 := congrFun h ix0
  dsimp only [Cert.Pre_finite_inputs.fn, Cert.Pre_finite_inputs.fn_part1] at h0
  have h1 := (IntOp.andi_eq_one.1 h0).2
  have h2 := Host.reduce_andi_all _ _ _ _ _ h1 (ix2 b s)
  have h3 : Ideal.cmp .ogt (Cert.ReferenceIdeal.Read.val_main_call0_v1 (F := Ideal) X LR LL (ix2 b s))
      (Ideal.ofBits .f32 0x00000000#32) = 1#1 := h2
  rw [Ideal.ofBits_zero_f32] at h3
  unfold Ideal.cmp at h3
  exact of_decide_eq_true ((StableHlo.Predicate.ofBool_eq_one_iff _).1 h3)

/-- The same in the token's own terms: its LoRA row's squared norm is positive. -/
theorem normSq_pos (h : Cert.Pre_finite_inputs.fn (F := Ideal) X W Bv LR LL = fun _ => 1#1) (b : Fin 4) (s : Fin 2048) :
    0 < normSq (Cert.RefRow.xRow X b s) (Cert.RefRow.lrMat LR b) (Cert.RefRow.llMat LL b) := by
  rw [← Cert.RefRow.sumSq_apply]
  exact sumSq_pos X W Bv LR LL h b s

end Cert.PreRows

end
-- ==== Proof.lean ====
/-
  A linear layer with a per-batch low-rank (LoRA) correction whose rows are L2-normalised:

      out[b, s, :] = input[b, s, :] · weightᵀ + bias + normalise((input[b, s, :] · right[b]) · left[b]) · 1.0

  The kernel tiles the tokens 256 at a time over a 4 × 8 grid and normalises a LoRA row y by multiplying it with
  rsqrt(Σ y²); the reference divides it by sqrt(Σ y²). On the extended reals the two agree exactly when Σ y² > 0
  (for a real Σ y² > 0 both are y · (√Σ y²)⁻¹; for Σ y² = ⊤ both are 0). At Σ y² = 0 the reference's quotient is 0 / 0,
  undefined, while the kernel's product is 0 · ⊤ = 0: the precondition therefore asks, besides finite inputs, that every
  token's LoRA row be nonzero (Σ y² > 0), and that is the only place it is used. Everything else is the same sums on
  both sides: changes of float format are the identity, a matrix product into a zero accumulator and a lane sum from
  zero are plain sums, and the order of the tiles does not matter because the 32 output blocks tile the result.

  The modules: TokenSpec (one token's output row in both forms, and the law between them), RefRow (the reference's
  result at an index is the quotient form), TilePayload (what the kernel body stores for a tile, at an index, is the
  reciprocal-square-root form), KernelArray (the tiles put together: the kernel's result array as one function),
  PreRows (the precondition's last conjunct read as Σ y² > 0 for every token).
-/
import proofs.«175796_j80874234183963_1_alg».proof.Defs
import proofs.«175796_j80874234183963_1_alg».proof.Proof.Gen.Kernel
import proofs.«175796_j80874234183963_1_alg».proof.Proof.Gen.Kernel.Skeleton
import proofs.«175796_j80874234183963_1_alg».proof.Proof.Gen.Kernel.Launch
import proofs.«175796_j80874234183963_1_alg».proof.Proof.Gen.Kernel.Points
import proofs.«175796_j80874234183963_1_alg».proof.Proof.Gen.Kernel.Frame
import proofs.«175796_j80874234183963_1_alg».proof.Proof.Gen.KernelIdeal
import proofs.«175796_j80874234183963_1_alg».proof.Proof.Gen.KernelIdeal.Skeleton
import proofs.«175796_j80874234183963_1_alg».proof.Proof.Gen.KernelIdeal.Launch
import proofs.«175796_j80874234183963_1_alg».proof.Proof.Gen.KernelIdeal.Points
import proofs.«175796_j80874234183963_1_alg».proof.Proof.Gen.KernelIdeal.Frame
import proofs.«175796_j80874234183963_1_alg».proof.Proof.Gen.ReferenceIdeal
import proofs.«175796_j80874234183963_1_alg».proof.Proof.Gen.Pre_finite_inputs
import proofs.«175796_j80874234183963_1_alg».proof.Proof.Gen.KernelIdeal.Value
import proofs.«175796_j80874234183963_1_alg».proof.Proof.Gen.ReferenceIdeal.Run
import proofs.«175796_j80874234183963_1_alg».proof.Proof.Gen.ReferenceIdeal.Read
import proofs.«175796_j80874234183963_1_alg».proof.Proof.KernelArray
import proofs.«175796_j80874234183963_1_alg».proof.Proof.PreRows
import Idealize.ShloMosaic.Adequacy
import Idealize.ShloMosaic.Init

noncomputable section

namespace Cert.Proof

open Idealize.ShloMosaic Idealize.ShloMosaic.TcCoe Idealize.SL.Sem Idealize.ShloMosaic.ValueIdx Cert.TokenSpec

/-- Under the precondition, the reference's result (as a function of arrays that agree with the kernel's arguments) is the
    kernel's result function: index by index the quotient form of the token's row equals the reciprocal-square-root
    form, the token's squared norm being positive. -/
theorem reference_eq_result (m : (ℓ : Loc Cert.KernelIdeal.nD Cert.KernelIdeal.τ Cert.KernelIdeal.sig) → Buf (Elt Ideal) ℓ)
    (c : Dev Cert.KernelIdeal.nD)
    (X : (⟨Cert.ReferenceIdeal.S4x2048x2048, .f32⟩ : BufTy).Contents (Elt Ideal))
    (W : (⟨Cert.ReferenceIdeal.S2048x2048, .f32⟩ : BufTy).Contents (Elt Ideal))
    (Bv : (⟨Cert.ReferenceIdeal.S2048, .f32⟩ : BufTy).Contents (Elt Ideal))
    (LR : (⟨Cert.ReferenceIdeal.S4x2048x16, .f32⟩ : BufTy).Contents (Elt Ideal))
    (LL : (⟨Cert.ReferenceIdeal.S4x16x2048, .f32⟩ : BufTy).Contents (Elt Ideal))
    (hX : X = m ((c.tc : Thread Cert.KernelIdeal.nD Cert.KernelIdeal.τ).loc Cert.KernelIdeal.main_arg0))
    (hW : W = m ((c.tc : Thread Cert.KernelIdeal.nD Cert.KernelIdeal.τ).loc Cert.KernelIdeal.main_arg1))
    (hB : Bv = m ((c.tc : Thread Cert.KernelIdeal.nD Cert.KernelIdeal.τ).loc Cert.KernelIdeal.main_arg2))
    (hR : LR = m ((c.tc : Thread Cert.KernelIdeal.nD Cert.KernelIdeal.τ).loc Cert.KernelIdeal.main_arg3))
    (hL : LL = m ((c.tc : Thread Cert.KernelIdeal.nD Cert.KernelIdeal.τ).loc Cert.KernelIdeal.main_arg4))
    (hpre : Cert.Pre_finite_inputs.fn (F := Ideal) X W Bv LR LL = fun _ => 1#1) :
    Cert.ReferenceIdeal.Read.val_main_v11 (F := Ideal) X W Bv LR LL = Cert.KernelArray.result m c := by
  funext i
  obtain ⟨b, s, r, rfl⟩ : ∃ (b : Fin 4) (s r : Fin 2048), i = ix3 b s r := ⟨i 0, i 1, i 2, eq_ix3 i⟩
  rw [Cert.RefRow.out_apply,
    ← viaRsqrt_eq_viaQuotient _ _ _ _ _ (Cert.PreRows.normSq_pos X W Bv LR LL hpre b s) r]
  subst hX hW hB hR hL
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the kernel's result function of the (agreeing) arguments. -/
theorem algebraic : Cert.algebraic_KernelIdeal_ReferenceIdeal := by
  intro m ρ m' ρ' hpre hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  refine reference_eq_result m c _ _ _ _ _ h0 h1 h2 h3 h4 ?_
  rw [h0, h1, h2, h3, h4]
  exact hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
